-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x16 : Shape := ⟨2, ![32768, 16]⟩
abbrev S32768x3 : Shape := ⟨2, ![32768, 3]⟩
abbrev S128x3415 : Shape := ⟨2, ![128, 3415]⟩
abbrev S128 : Shape := ⟨1, ![128]⟩
abbrev S_ : Shape := ⟨0, ![]⟩

class Facts : Prop where
  bcast_S_S32768x16 : S_.BroadcastsInDim S32768x16 (![] : Fin 0 → Fin S32768x16.rank)
  reducesTo_S32768x16_S_d0_1 : S32768x16.ReducesTo [0, 1] S_
  h_S_ : 0 < S_.numel
  bcast_S_S128x3415 : S_.BroadcastsInDim S128x3415 (![] : Fin 0 → Fin S128x3415.rank)
  reducesTo_S128x3415_S_d0_1 : S128x3415.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S32768x16 .f32) (main_arg1 : IVec S32768x3 32) (main_arg2 : FVec F S128x3415 .f32) (main_arg3 : FVec F S128 .f32) : IVec S_ 1 :=
  let main_v0 : FVec F S32768x16 .f32 := Host.absf main_arg0
  let main_cst : FVec F S_ .f32 := constant S_ .f32 0x7F800000#32
  let main_v1 : FVec F S32768x16 .f32 := broadcastInDim S32768x16 ![] bcast_S_S32768x16 main_cst
  let main_v2 : IVec S32768x16 1 := cmpf .olt main_v0 main_v1
  let main_c : IVec S_ 1 := constantI S_ 1 1#1
  let main_v3 : IVec S_ 1 := (fun x v => Host.reduce IntOp.andi x v reducesTo_S32768x16_S_d0_1 h_S_) main_v2 main_c
  let main_v4 : FVec F S128x3415 .f32 := Host.absf main_arg2
  let main_cst_0 : FVec F S_ .f32 := constant S_ .f32 0x7F800000#32
  let main_v5 : FVec F S128x3415 .f32 := broadcastInDim S128x3415 ![] bcast_S_S128x3415 main_cst_0
  let main_v6 : IVec S128x3415 1 := cmpf .olt main_v4 main_v5
  let main_c_1 : IVec S_ 1 := constantI S_ 1 1#1
  let main_v7 : IVec S_ 1 := (fun x v => Host.reduce IntOp.andi x v reducesTo_S128x3415_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S32768x16 : Shape := ⟨2, ![32768, 16]⟩
abbrev S32768x3 : Shape := ⟨2, ![32768, 3]⟩
abbrev S128x3415 : Shape := ⟨2, ![128, 3415]⟩
abbrev S128 : Shape := ⟨1, ![128]⟩
abbrev S1x128 : Shape := ⟨2, ![1, 128]⟩
abbrev S32768x128 : Shape := ⟨2, ![32768, 128]⟩
abbrev S512x16 : Shape := ⟨2, ![512, 16]⟩
abbrev S512x3 : Shape := ⟨2, ![512, 3]⟩
abbrev S512x128 : Shape := ⟨2, ![512, 128]⟩
abbrev S512x1 : Shape := ⟨2, ![512, 1]⟩
abbrev S128x16 : Shape := ⟨2, ![128, 16]⟩
abbrev S128x24 : Shape := ⟨2, ![128, 24]⟩
abbrev S512x24 : Shape := ⟨2, ![512, 24]⟩
abbrev S128x7 : Shape := ⟨2, ![128, 7]⟩
abbrev S512x7 : Shape := ⟨2, ![512, 7]⟩
abbrev S128x100 : Shape := ⟨2, ![128, 100]⟩
abbrev S512x100 : Shape := ⟨2, ![512, 100]⟩
abbrev S128x168 : Shape := ⟨2, ![128, 168]⟩
abbrev S512x168 : Shape := ⟨2, ![512, 168]⟩
abbrev S128x2400 : Shape := ⟨2, ![128, 2400]⟩
abbrev S512x2400 : Shape := ⟨2, ![512, 2400]⟩
abbrev S128x700 : Shape := ⟨2, ![128, 700]⟩
abbrev S512x700 : Shape := ⟨2, ![512, 700]⟩

abbrev nBuf : Space → Nat
  | .hbm => 6
  | .vmem => 8
  | .smem => 0
  | _ => 0

abbrev bufTy : (tb : Table) → Fin (tcTables nBuf tb) → BufTy
  | .hbm, ⟨0, _⟩ => ⟨S32768x16, .f32⟩
  | .hbm, ⟨1, _⟩ => ⟨S32768x3, .i32⟩
  | .hbm, ⟨2, _⟩ => ⟨S128x3415, .f32⟩
  | .hbm, ⟨3, _⟩ => ⟨S128, .f32⟩
  | .hbm, ⟨4, _⟩ => ⟨S1x128, .f32⟩
  | .hbm, ⟨5, _⟩ => ⟨S32768x128, .f32⟩
  | .local _ .vmem, ⟨0, _⟩ => ⟨S512x16, .f32⟩
  | .local _ .vmem, ⟨1, _⟩ => ⟨S512x16, .f32⟩
  | .local _ .vmem, ⟨2, _⟩ => ⟨S512x3, .i32⟩
  | .local _ .vmem, ⟨3, _⟩ => ⟨S512x3, .i32⟩
  | .local _ .vmem, ⟨4, _⟩ => ⟨S128x3415, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | _, _ => ⟨S32768x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x3415 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S512x3_S512x1_0_0 : ∀ a, (![0, 0] : Fin 2 → Nat) a + S512x1.size a ≤ S512x3.size a
  h_S512x1 : 0 < S512x1.numel
  inb_S512x3_S512x1_0_1 : ∀ a, (![0, 1] : Fin 2 → Nat) a + S512x1.size a ≤ S512x3.size a
  inb_S512x3_S512x1_0_2 : ∀ a, (![0, 2] : Fin 2 → Nat) a + S512x1.size a ≤ S512x3.size a
  inb_S512x16_S512x16_0_0 : ∀ a, (![0, 0] : Fin 2 → Nat) a + S512x16.size a ≤ S512x16.size a
  h_S512x16 : 0 < S512x16.numel
  inb_S128x3415_S128x16_0_0 : ∀ a, (![0, 0] : Fin 2 → Nat) a + S128x16.size a ≤ S128x3415.size a
  h_S128x16 : 0 < S128x16.numel
  bitsLt_bf16_f32 : FTy.bits .bf16 < FTy.bits .f32
  inb_S128x3415_S128x24_0_16 : ∀ a, (![0, 16] : Fin 2 → Nat) a + S128x24.size a ≤ S128x3415.size a
  h_S128x24 : 0 < S128x24.numel
  iota_S512x24_d1_w32 : S512x24.Iotas .tc 32 [1]
  broadcasts_S512x1_S512x24 : S512x1.Broadcasts S512x24
  natLt_1_32 : 1 < 32
  inb_S128x3415_S128x7_0_40 : ∀ a, (![0, 40] : Fin 2 → Nat) a + S128x7.size a ≤ S128x3415.size a
  h_S128x7 : 0 < S128x7.numel
  iota_S512x7_d1_w32 : S512x7.Iotas .tc 32 [1]
  broadcasts_S512x1_S512x7 : S512x1.Broadcasts S512x7
  inb_S128x3415_S128x100_0_47 : ∀ a, (![0, 47] : Fin 2 → Nat) a + S128x100.size a ≤ S128x3415.size a
  h_S128x100 : 0 < S128x100.numel
  iota_S512x100_d1_w32 : S512x100.Iotas .tc 32 [1]
  broadcasts_S512x1_S512x100 : S512x1.Broadcasts S512x100
  inb_S128x3415_S128x168_0_147 : ∀ a, (![0, 147] : Fin 2 → Nat) a + S128x168.size a ≤ S128x3415.size a
  h_S128x168 : 0 < S128x168.numel
  iota_S512x168_d1_w32 : S512x168.Iotas .tc 32 [1]
  broadcasts_S512x1_S512x168 : S512x1.Broadcasts S512x168
  inb_S128x3415_S128x2400_0_315 : ∀ a, (![0, 315] : Fin 2 → Nat) a + S128x2400.size a ≤ S128x3415.size a
  h_S128x2400 : 0 < S128x2400.numel
  iota_S512x2400_d1_w32 : S512x2400.Iotas .tc 32 [1]
  broadcasts_S512x1_S512x2400 : S512x1.Broadcasts S512x2400
  inb_S128x3415_S128x700_0_2715 : ∀ a, (![0, 2715] : Fin 2 → Nat) a + S128x700.size a ≤ S128x3415.size a
  h_S128x700 : 0 < S128x700.numel
  iota_S512x700_d1_w32 : S512x700.Iotas .tc 32 [1]
  broadcasts_S512x1_S512x700 : S512x1.Broadcasts S512x700
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  dot_S512x16_S128x16_S512x128_1_1_0_0_n_n_wf : DotDims.WF S512x16 S128x16 S512x128 [1] [1] [0] [0] [] []
  dot_S512x24_S128x24_S512x128_1_1_0_0_n_n_wf : DotDims.WF S512x24 S128x24 S512x128 [1] [1] [0] [0] [] []
  dot_S512x7_S128x7_S512x128_1_1_0_0_n_n_wf : DotDims.WF S512x7 S128x7 S512x128 [1] [1] [0] [0] [] []
  dot_S512x100_S128x100_S512x128_1_1_0_0_n_n_wf : DotDims.WF S512x100 S128x100 S512x128 [1] [1] [0] [0] [] []
  dot_S512x168_S128x168_S512x128_1_1_0_0_n_n_wf : DotDims.WF S512x168 S128x168 S512x128 [1] [1] [0] [0] [] []
  dot_S512x2400_S128x2400_S512x128_1_1_0_0_n_n_wf : DotDims.WF S512x2400 S128x2400 S512x128 [1] [1] [0] [0] [] []
  dot_S512x700_S128x700_S512x128_1_1_0_0_n_n_wf : DotDims.WF S512x700 S128x700 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16.size a ≤ S32768x16.size a
  hwx0_0 : ∀ i : grid0.Coords, EltTy.bits .f32 = 32 ∨ (Rect.block (s := S32768x16) S512x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S32768x3.size a
  hwx0_1 : ∀ i : grid0.Coords, EltTy.bits .i32 = 32 ∨ (Rect.block (s := S32768x3) S512x3.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x3415.size a ≤ S128x3415.size a
  hwx0_2 : ∀ i : grid0.Coords, EltTy.bits .f32 = 32 ∨ (Rect.block (s := S128x3415) S128x3415.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S32768x128.size a
  hwx0_4 : ∀ i : grid0.Coords, EltTy.bits .f32 = 32 ∨ (Rect.block (s := S32768x128) S512x128.size (cc0_transform_4 i) (hinb0_4 i)).WholeWords (EltTy.packing .f32)

variable [Facts₀]

def dot_S512x16_S128x16_S512x128_1_1_0_0_n_n : DotDims S512x16 S128x16 S512x128 where
  lhsContracting := [1]
  rhsContracting := [1]
  lhsNonContracting := [0]
  rhsNonContracting := [0]
  lhsBatch := []
  rhsBatch := []
  wf := dot_S512x16_S128x16_S512x128_1_1_0_0_n_n_wf
def dot_S512x24_S128x24_S512x128_1_1_0_0_n_n : DotDims S512x24 S128x24 S512x128 where
  lhsContracting := [1]
  rhsContracting := [1]
  lhsNonContracting := [0]
  rhsNonContracting := [0]
  lhsBatch := []
  rhsBatch := []
  wf := dot_S512x24_S128x24_S512x128_1_1_0_0_n_n_wf
def dot_S512x7_S128x7_S512x128_1_1_0_0_n_n : DotDims S512x7 S128x7 S512x128 where
  lhsContracting := [1]
  rhsContracting := [1]
  lhsNonContracting := [0]
  rhsNonContracting := [0]
  lhsBatch := []
  rhsBatch := []
  wf := dot_S512x7_S128x7_S512x128_1_1_0_0_n_n_wf
def dot_S512x100_S128x100_S512x128_1_1_0_0_n_n : DotDims S512x100 S128x100 S512x128 where
  lhsContracting := [1]
  rhsContracting := [1]
  lhsNonContracting := [0]
  rhsNonContracting := [0]
  lhsBatch := []
  rhsBatch := []
  wf := dot_S512x100_S128x100_S512x128_1_1_0_0_n_n_wf
def dot_S512x168_S128x168_S512x128_1_1_0_0_n_n : DotDims S512x168 S128x168 S512x128 where
  lhsContracting := [1]
  rhsContracting := [1]
  lhsNonContracting := [0]
  rhsNonContracting := [0]
  lhsBatch := []
  rhsBatch := []
  wf := dot_S512x168_S128x168_S512x128_1_1_0_0_n_n_wf
def dot_S512x2400_S128x2400_S512x128_1_1_0_0_n_n : DotDims S512x2400 S128x2400 S512x128 where
  lhsContracting := [1]
  rhsContracting := [1]
  lhsNonContracting := [0]
  rhsNonContracting := [0]
  lhsBatch := []
  rhsBatch := []
  wf := dot_S512x2400_S128x2400_S512x128_1_1_0_0_n_n_wf
def dot_S512x700_S128x700_S512x128_1_1_0_0_n_n : DotDims S512x700 S128x700 S512x128 where
  lhsContracting := [1]
  rhsContracting := [1]
  lhsNonContracting := [0]
  rhsNonContracting := [0]
  lhsBatch := []
  rhsBatch := []
  wf := dot_S512x700_S128x700_S512x128_1_1_0_0_n_n_wf

abbrev win0_0 : Pipeline.Window sig grid0 :=
  Pipeline.Window.ofSpec (Memref.whole main_arg0) S512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x3415.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x16 : Shape := ⟨2, ![32768, 16]⟩
abbrev S32768x3 : Shape := ⟨2, ![32768, 3]⟩
abbrev S128x3415 : Shape := ⟨2, ![128, 3415]⟩
abbrev S128 : Shape := ⟨1, ![128]⟩
abbrev S32768x1 : Shape := ⟨2, ![32768, 1]⟩
abbrev S32768 : Shape := ⟨1, ![32768]⟩
abbrev S1x24 : Shape := ⟨2, ![1, 24]⟩
abbrev S32768x24 : Shape := ⟨2, ![32768, 24]⟩
abbrev S1x7 : Shape := ⟨2, ![1, 7]⟩
abbrev S32768x7 : Shape := ⟨2, ![32768, 7]⟩
abbrev S1x100 : Shape := ⟨2, ![1, 100]⟩
abbrev S32768x100 : Shape := ⟨2, ![32768, 100]⟩
abbrev S_ : Shape := ⟨0, ![]⟩
abbrev S1x168 : Shape := ⟨2, ![1, 168]⟩
abbrev S32768x168 : Shape := ⟨2, ![32768, 168]⟩
abbrev S1x2400 : Shape := ⟨2, ![1, 2400]⟩
abbrev S32768x2400 : Shape := ⟨2, ![32768, 2400]⟩
abbrev S1x700 : Shape := ⟨2, ![1, 700]⟩
abbrev S32768x700 : Shape := ⟨2, ![32768, 700]⟩
abbrev S32768x3415 : Shape := ⟨2, ![32768, 3415]⟩
abbrev S3415x128 : Shape := ⟨2, ![3415, 128]⟩
abbrev S32768x128 : Shape := ⟨2, ![32768, 128]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S32768x16, .f32⟩
  | .hbm, ⟨1, _⟩ => ⟨S32768x3, .i32⟩
  | .hbm, ⟨2, _⟩ => ⟨S128x3415, .f32⟩
  | .hbm, ⟨3, _⟩ => ⟨S128, .f32⟩
  | .hbm, ⟨4, _⟩ => ⟨S32768x1, .i32⟩
  | .hbm, ⟨5, _⟩ => ⟨S32768, .i32⟩
  | .hbm, ⟨6, _⟩ => ⟨S32768x1, .i32⟩
  | .hbm, ⟨7, _⟩ => ⟨S1x24, .i32⟩
  | .hbm, ⟨8, _⟩ => ⟨S32768x24, .i32⟩
  | .hbm, ⟨9, _⟩ => ⟨S32768x24, .i32⟩
  | .hbm, ⟨10, _⟩ => ⟨S32768x24, .i1⟩
  | .hbm, ⟨11, _⟩ => ⟨S32768x24, .f32⟩
  | .hbm, ⟨12, _⟩ => ⟨S32768x1, .i32⟩
  | .hbm, ⟨13, _⟩ => ⟨S32768, .i32⟩
  | .hbm, ⟨14, _⟩ => ⟨S32768x1, .i32⟩
  | .hbm, ⟨15, _⟩ => ⟨S1x7, .i32⟩
  | .hbm, ⟨16, _⟩ => ⟨S32768x7, .i32⟩
  | .hbm, ⟨17, _⟩ => ⟨S32768x7, .i32⟩
  | .hbm, ⟨18, _⟩ => ⟨S32768x7, .i1⟩
  | .hbm, ⟨19, _⟩ => ⟨S32768x7, .f32⟩
  | .hbm, ⟨20, _⟩ => ⟨S32768x1, .i32⟩
  | .hbm, ⟨21, _⟩ => ⟨S32768, .i32⟩
  | .hbm, ⟨22, _⟩ => ⟨S32768x1, .i32⟩
  | .hbm, ⟨23, _⟩ => ⟨S1x100, .i32⟩
  | .hbm, ⟨24, _⟩ => ⟨S32768x100, .i32⟩
  | .hbm, ⟨25, _⟩ => ⟨S32768x100, .i32⟩
  | .hbm, ⟨26, _⟩ => ⟨S32768x100, .i1⟩
  | .hbm, ⟨27, _⟩ => ⟨S32768x100, .f32⟩
  | .hbm, ⟨28, _⟩ => ⟨S32768x1, .i32⟩
  | .hbm, ⟨29, _⟩ => ⟨S32768, .i32⟩
  | .hbm, ⟨30, _⟩ => ⟨S_, .i32⟩
  | .hbm, ⟨31, _⟩ => ⟨S32768, .i32⟩
  | .hbm, ⟨32, _⟩ => ⟨S32768, .i32⟩
  | .hbm, ⟨33, _⟩ => ⟨S32768x1, .i32⟩
  | .hbm, ⟨34, _⟩ => ⟨S32768, .i32⟩
  | .hbm, ⟨35, _⟩ => ⟨S32768, .i32⟩
  | .hbm, ⟨36, _⟩ => ⟨S32768x1, .i32⟩
  | .hbm, ⟨37, _⟩ => ⟨S1x168, .i32⟩
  | .hbm, ⟨38, _⟩ => ⟨S32768x168, .i32⟩
  | .hbm, ⟨39, _⟩ => ⟨S32768x168, .i32⟩
  | .hbm, ⟨40, _⟩ => ⟨S32768x168, .i1⟩
  | .hbm, ⟨41, _⟩ => ⟨S32768x168, .f32⟩
  | .hbm, ⟨42, _⟩ => ⟨S32768x1, .i32⟩
  | .hbm, ⟨43, _⟩ => ⟨S32768, .i32⟩
  | .hbm, ⟨44, _⟩ => ⟨S_, .i32⟩
  | .hbm, ⟨45, _⟩ => ⟨S32768, .i32⟩
  | .hbm, ⟨46, _⟩ => ⟨S32768, .i32⟩
  | .hbm, ⟨47, _⟩ => ⟨S32768x1, .i32⟩
  | .hbm, ⟨48, _⟩ => ⟨S32768, .i32⟩
  | .hbm, ⟨49, _⟩ => ⟨S32768, .i32⟩
  | .hbm, ⟨50, _⟩ => ⟨S32768x1, .i32⟩
  | .hbm, ⟨51, _⟩ => ⟨S1x2400, .i32⟩
  | .hbm, ⟨52, _⟩ => ⟨S32768x2400, .i32⟩
  | .hbm, ⟨53, _⟩ => ⟨S32768x2400, .i32⟩
  | .hbm, ⟨54, _⟩ => ⟨S32768x2400, .i1⟩
  | .hbm, ⟨55, _⟩ => ⟨S32768x2400, .f32⟩
  | .hbm, ⟨56, _⟩ => ⟨S32768x1, .i32⟩
  | .hbm, ⟨57, _⟩ => ⟨S32768, .i32⟩
  | .hbm, ⟨58, _⟩ => ⟨S_, .i32⟩
  | .hbm, ⟨59, _⟩ => ⟨S32768, .i32⟩
  | .hbm, ⟨60, _⟩ => ⟨S32768, .i32⟩
  | .hbm, ⟨61, _⟩ => ⟨S32768x1, .i32⟩
  | .hbm, ⟨62, _⟩ => ⟨S32768, .i32⟩
  | .hbm, ⟨63, _⟩ => ⟨S32768, .i32⟩
  | .hbm, ⟨64, _⟩ => ⟨S32768x1, .i32⟩
  | .hbm, ⟨65, _⟩ => ⟨S1x700, .i32⟩
  | .hbm, ⟨66, _⟩ => ⟨S32768x700, .i32⟩
  | .hbm, ⟨67, _⟩ => ⟨S32768x700, .i32⟩
  | .hbm, ⟨68, _⟩ => ⟨S32768x700, .i1⟩
  | .hbm, ⟨69, _⟩ => ⟨S32768x700, .f32⟩
  | .hbm, ⟨70, _⟩ => ⟨S32768x3415, .f32⟩
  | .hbm, ⟨71, _⟩ => ⟨S3415x128, .f32⟩
  | .hbm, ⟨72, _⟩ => ⟨S32768x128, .f32⟩
  | .hbm, ⟨73, _⟩ => ⟨S1x128, .f32⟩
  | .hbm, ⟨74, _⟩ => ⟨S32768x128, .f32⟩
  | .hbm, ⟨75, _⟩ => ⟨S32768x128, .f32⟩
  | .hbm, ⟨76, _⟩ => ⟨S_, .f32⟩
  | .hbm, ⟨77, _⟩ => ⟨S32768x128, .f32⟩
  | .hbm, ⟨78, _⟩ => ⟨S32768x128, .f32⟩
  | _, _ => ⟨S32768x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call4_v0 : Ref sig .tc := ⟨.hbm, 50, rfl⟩
abbrev main_call4_v1 : Ref sig .tc := ⟨.hbm, 51, rfl⟩
abbrev main_call4_v2 : Ref sig .tc := ⟨.hbm, 52, rfl⟩
abbrev main_call4_v3 : Ref sig .tc := ⟨.hbm, 53, rfl⟩
abbrev main_call4_v4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_1 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_call5_v0 : Ref sig .tc := ⟨.hbm, 64, rfl⟩
abbrev main_call5_v1 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_call6_cst : Ref sig .tc := ⟨.hbm, 76, rfl⟩
abbrev main_call6_v0 : Ref sig .tc := ⟨.hbm, 77, rfl⟩
abbrev main_v39 : Ref sig .tc := ⟨.hbm, 78, rfl⟩

abbrev nD : Nat := 1
abbrev τ : Topo := Topo.v7x

variable {F : FTy → Type} [FloatOps F]

class Facts₀ : Prop where
  slices_S32768x3_S32768x1_0_0 : S32768x3.Slices ![0, 0] S32768x1
  shapeCasts_S32768x1_S32768 : S32768x1.ShapeCasts S32768
  bcast_S32768_S32768x1_0 : S32768.BroadcastsInDim S32768x1 (![0] : Fin 1 → Fin S32768x1.rank)
  bcast_S32768x1_S32768x24_0_1 : S32768x1.BroadcastsInDim S32768x24 (![0, 1] : Fin 2 → Fin S32768x24.rank)
  bcast_S1x24_S32768x24_0_1 : S1x24.BroadcastsInDim S32768x24 (![0, 1] : Fin 2 → Fin S32768x24.rank)
  slices_S32768x3_S32768x1_0_1 : S32768x3.Slices ![0, 1] S32768x1
  bcast_S32768x1_S32768x7_0_1 : S32768x1.BroadcastsInDim S32768x7 (![0, 1] : Fin 2 → Fin S32768x7.rank)
  bcast_S1x7_S32768x7_0_1 : S1x7.BroadcastsInDim S32768x7 (![0, 1] : Fin 2 → Fin S32768x7.rank)
  slices_S32768x3_S32768x1_0_2 : S32768x3.Slices ![0, 2] S32768x1
  bcast_S32768x1_S32768x100_0_1 : S32768x1.BroadcastsInDim S32768x100 (![0, 1] : Fin 2 → Fin S32768x100.rank)
  bcast_S1x100_S32768x100_0_1 : S1x100.BroadcastsInDim S32768x100 (![0, 1] : Fin 2 → Fin S32768x100.rank)
  bcast_S_S32768 : S_.BroadcastsInDim S32768 (![] : Fin 0 → Fin S32768.rank)
  bcast_S32768x1_S32768x168_0_1 : S32768x1.BroadcastsInDim S32768x168 (![0, 1] : Fin 2 → Fin S32768x168.rank)
  bcast_S1x168_S32768x168_0_1 : S1x168.BroadcastsInDim S32768x168 (![0, 1] : Fin 2 → Fin S32768x168.rank)
  bcast_S32768x1_S32768x2400_0_1 : S32768x1.BroadcastsInDim S32768x2400 (![0, 1] : Fin 2 → Fin S32768x2400.rank)
  bcast_S1x2400_S32768x2400_0_1 : S1x2400.BroadcastsInDim S32768x2400 (![0, 1] : Fin 2 → Fin S32768x2400.rank)
  bcast_S32768x1_S32768x700_0_1 : S32768x1.BroadcastsInDim S32768x700 (![0, 1] : Fin 2 → Fin S32768x700.rank)
  bcast_S1x700_S32768x700_0_1 : S1x700.BroadcastsInDim S32768x700 (![0, 1] : Fin 2 → Fin S32768x700.rank)
  concatenates_S32768x16_S32768x24_S32768x7_S32768x100_S32768x168_S32768x2400_S32768x700_S32768x3415_d1 : Shape.Concatenates [S32768x16, S32768x24, S32768x7, S32768x100, S32768x168, S32768x2400, S32768x700] S32768x3415 1
  transposes_S128x3415_S3415x128_1_0 : S128x3415.Transposes [1, 0] S3415x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  dot_S32768x3415_S3415x128_S32768x128_1_0_0_1_n_n_wf : DotDims.WF S32768x3415 S3415x128 S32768x128 [1] [0] [0] [1] [] []

variable [Facts₀]

def dot_S32768x3415_S3415x128_S32768x128_1_0_0_1_n_n : DotDims S32768x3415 S3415x128 S32768x128 where
  lhsContracting := [1]
  rhsContracting := [0]
  lhsNonContracting := [0]
  rhsNonContracting := [1]
  lhsBatch := []
  rhsBatch := []
  wf := dot_S32768x3415_S3415x128_S32768x128_1_0_0_1_n_n_wf

class Facts : Prop extends Facts₀ where

variable [Facts]
-- ==== Proof.Spec.lean ====
/-
  The common value of both programs, one output entry at a time.

  A row of the wide layer's feature matrix is the concatenation of seven groups of columns: the 16 dense
  features, the one-hot codes of the three sparse columns (24, 7 and 100 lanes), and the one-hot codes of
  their three pairwise crosses (168, 2400 and 700 lanes; a cross code is `a * size_b + b` in 32-bit
  arithmetic).  Entry (i, j) of the result is `max (∑ₖ features i k * W j k + b j) 0`.

  The sum over the 3415 columns is the sum of the seven group sums, each over its own stretch of columns
  of `W`'s row; the grouping below — the groups added from the left — is the order in which the kernel
  accumulates them.  Splitting a finite sum into consecutive stretches uses only that addition is
  commutative and associative, so nothing here asks that the entries be finite.
-/
import Idealize.ShloMosaic.PureOps.Ideal
import Idealize.ShloMosaic.Lib.ValueIdx
import Idealize.ShloMosaic.Lib.KernelVsHost
import Mathlib.Algebra.BigOperators.Fin

noncomputable section

namespace Cert.WideSpec

open Idealize.ShloMosaic

/-- The one-hot entry: 1 when the 32-bit code `w` is the lane number `k`, else 0 — a code outside the
    lanes (negative, or too large) therefore has an all-zero row. -/
def hot (w : BitVec 32) (k : ℕ) : EReal := (((IntOp.cmpi .eq w (BitVec.ofNat 32 k)).toNat : ℝ) : EReal)

/-- Equality of words does not depend on the side each is written on. -/
theorem cmpi_eq_comm (x y : BitVec 32) : IntOp.cmpi .eq x y = IntOp.cmpi .eq y x := by
  unfold IntOp.cmpi
  show BitVec.ofBool (x == y) = BitVec.ofBool (y == x)
  rw [Bool.beq_comm]

/-- The comparison bit widened to a word and read as a signed integer is the same 0 or 1, with the lane
    number written first. -/
theorem hot_widened (w : BitVec 32) (k : ℕ) :
    (((((IntOp.cmpi .eq (BitVec.ofNat 32 k) w).setWidth 32).toInt : ℤ) : ℝ) : EReal) = hot w k := by
  unfold hot
  rw [toInt_setWidth_bit, cmpi_eq_comm]
  norm_cast

/-- A sum over `n = a + b` consecutive indices is the sum over the first `a` plus the sum over the
    last `b`. -/
theorem sum_split {M : Type*} [AddCommMonoid M] (a b n : ℕ) (h : a + b = n) (f : Fin n → M) :
    ∑ k : Fin n, f k = ∑ k : Fin a, f ⟨k.val, by omega⟩ + ∑ k : Fin b, f ⟨a + k.val, by omega⟩ := by
  subst h
  rw [Fin.sum_univ_add]
  rfl

/-- The 3415 columns as their seven groups, the groups added from the left. -/
theorem sum_groups {M : Type*} [AddCommMonoid M] (f : Fin 3415 → M) :
    ∑ k : Fin 3415, f k
      = (((((∑ k : Fin 16, f ⟨k.val, by omega⟩
        + ∑ k : Fin 24, f ⟨16 + k.val, by omega⟩)
        + ∑ k : Fin 7, f ⟨40 + k.val, by omega⟩)
        + ∑ k : Fin 100, f ⟨47 + k.val, by omega⟩)
        + ∑ k : Fin 168, f ⟨147 + k.val, by omega⟩)
        + ∑ k : Fin 2400, f ⟨315 + k.val, by omega⟩)
        + (∑ k : Fin 700, f ⟨2715 + k.val, by omega⟩) := by
  rw [sum_split 2715 700 3415 rfl f, sum_split 315 2400 2715 rfl, sum_split 147 168 315 rfl,
    sum_split 47 100 147 rfl, sum_split 40 7 47 rfl, sum_split 16 24 40 rfl]

/-- The seven group sums of one output entry: `d` the row's dense features, `s0 s1 s2` its three sparse
    codes, `w` the output unit's row of weights. -/
def wide (d : Fin 16 → EReal) (s0 s1 s2 : BitVec 32) (w : Fin 3415 → EReal) : EReal :=
  (((((∑ k : Fin 16, d k * w ⟨k.val, by omega⟩
    + ∑ k : Fin 24, hot s0 k.val * w ⟨16 + k.val, by omega⟩)
    + ∑ k : Fin 7, hot s1 k.val * w ⟨40 + k.val, by omega⟩)
    + ∑ k : Fin 100, hot s2 k.val * w ⟨47 + k.val, by omega⟩)
    + ∑ k : Fin 168, hot (IntOp.addi (IntOp.muli s0 7#32) s1) k.val * w ⟨147 + k.val, by omega⟩)
    + ∑ k : Fin 2400, hot (IntOp.addi (IntOp.muli s0 100#32) s2) k.val * w ⟨315 + k.val, by omega⟩)
    + (∑ k : Fin 700, hot (IntOp.addi (IntOp.muli s1 100#32) s2) k.val * w ⟨2715 + k.val, by omega⟩)

/-- One output entry: the group sums plus the bias, clamped below at zero. -/
def entry (d : Fin 16 → EReal) (s0 s1 s2 : BitVec 32) (w : Fin 3415 → EReal) (bias : EReal) : EReal :=
  max (wide d s0 s1 s2 w + bias) (Ideal.ofBits .f32 0x00000000#32)

open ValueIdx in
/-- The whole result: entry (i, j) from row i of the dense and sparse inputs, row j of the weights and
    entry j of the bias. -/
def result (x0 : (⟨2, ![32768, 16]⟩ : Shape).Idx → EReal) (x1 : (⟨2, ![32768, 3]⟩ : Shape).Idx → BitVec 32)
    (x2 : (⟨2, ![128, 3415]⟩ : Shape).Idx → EReal) (x3 : (⟨1, ![128]⟩ : Shape).Idx → EReal) :
    (⟨2, ![32768, 128]⟩ : Shape).Idx → EReal := fun i =>
  entry (fun k => x0 (ix2 (i 0) k)) (x1 (ix2 (i 0) (0 : Fin 3))) (x1 (ix2 (i 0) (1 : Fin 3))) (x1 (ix2 (i 0) (2 : Fin 3)))
    (fun k => x2 (ix2 (i 1) k)) (x3 (ix1 (i 1)))

end Cert.WideSpec

end
-- ==== Proof.LibMatmulNT.lean ====
/-
  A matrix product whose right operand is contracted on its LAST axis — an [M, K] matrix times the
  transpose of an [N, K] matrix — accumulated into a zero matrix, read at one entry over the extended
  reals: entry (r, q) is `∑ₖ lhs (r, k) * rhs (q, k)`, any sizes, any operand formats.

  The record of dimension numbers is taken abstractly with its six lists given by equations, so the lemma
  serves every record of that form whatever its name.
-/
import Idealize.ShloMosaic.PureOps.Ideal.Laws
import Idealize.ShloMosaic.Lib.ValueIdx

noncomputable section

namespace Cert.LibMatmulNT

open Idealize.ShloMosaic Idealize.ShloMosaic.ValueIdx

/-- Entry (r, q) of `lhs · rhsᵀ` accumulated into zero is the sum over the shared axis of the products. -/
theorem matmul_nt_zero_apply {M N K : ℕ} {φ₁ φ₂ : FTy}
    (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision)
    (lhs : FVec Ideal ⟨2, ![M, K]⟩ φ₁) (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  obtain ⟨lc, rc, ln, rn, lb, rb, wf⟩ := d
  dsimp only at hlc hrc hln hrn hlb hrb
  subst hlc hrc hln hrn hlb hrb
  generalize hD : (⟨[1], [1], [0], [0], [], [], wf⟩ : DotDims ⟨2, ![M, K]⟩ ⟨2, ![N, K]⟩ ⟨2, ![M, N]⟩) = D
  have l0 : ∀ (j : (⟨2, ![M, N]⟩ : Shape).Idx) (c : D.contr.Idx), (D.lhsIdx j c 0).val = (j 0).val := by
    intro j c
    subst hD
    unfold DotDims.lhsIdx
    rw [dif_neg (show ¬(0 : Fin 2) ∈ ([] : List (Fin 2)) by decide), dif_pos (show (0 : Fin 2) ∈ ([0] : List (Fin 2)) by decide)]
    rfl
  have r0 : ∀ (j : (⟨2, ![M, N]⟩ : Shape).Idx) (c : D.contr.Idx), (D.rhsIdx j c 0).val = (j 1).val := by
    intro j c
    subst hD
    unfold DotDims.rhsIdx
    rw [dif_neg (show ¬(0 : Fin 2) ∈ ([] : List (Fin 2)) by decide), dif_pos (show (0 : Fin 2) ∈ ([0] : List (Fin 2)) by decide)]
    rfl
  have hlc' : D.lhsContracting = [1] := by subst hD; rfl
  have hrc' : D.rhsContracting = [1] := by subst hD; rfl
  have hr : D.contr.rank = 1 := by subst hD; rfl
  have hs : D.contr.size ⟨0, by omega⟩ = K := by subst hD; rfl
  rw [Ideal.matmul_constant_zero_apply, ← Equiv.sum_comp (contrEquiv1 D K hr hs).symm]
  refine Finset.sum_congr rfl fun k _ => ?_
  have hk := contrEquiv1_symm_val D K hr hs k
  have el : D.lhsIdx (ix2 r q) ((contrEquiv1 D K hr hs).symm k) = ix2 r k := funext fun a => Fin.ext (by
    match a with
    | ⟨0, _⟩ => exact l0 _ _
    | ⟨1, _⟩ => exact (D.lhsIdx_val_of_single hlc' _ _).trans hk)
  have er : D.rhsIdx (ix2 r q) ((contrEquiv1 D K hr hs).symm k) = ix2 q k := funext fun a => Fin.ext (by
    match a with
    | ⟨0, _⟩ => exact r0 _ _
    | ⟨1, _⟩ => exact (D.rhsIdx_val_of_single hrc' _ _).trans hk)
  rw [el, er]

end Cert.LibMatmulNT

end
-- ==== Proof.Payload.lean ====
/-
  What the kernel body computes for one grid point, read one entry at a time over the extended reals.

  The body forms the seven products `dense · W₀ᵀ`, `onehot(s0) · W₁ᵀ`, …, `onehot(s1·100+s2) · W₆ᵀ` with
  `Wg` the stretch of columns of the weight block that belongs to group `g`, adds them from the left,
  adds the bias row and clamps at zero.  A one-hot tile is built by comparing a lane counter with the
  row's code, widening the bit and converting it; over the extended reals the narrowing to bf16 changes
  nothing, and each product accumulated into zero is the plain sum over the group's lanes.  So entry
  (r, q) of the block the body stores is `WideSpec.entry` of row `r` of the dense and sparse blocks, row
  `q` of the weight block and entry `q` of the bias row.
-/
import proofs.«164826_j75728863363405_1_alg».proof.Proof.Gen.KernelIdeal.Frame
import proofs.«164826_j75728863363405_1_alg».proof.Proof.Spec
import proofs.«164826_j75728863363405_1_alg».proof.Proof.LibMatmulNT
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.WideSpec
open Cert.LibMatmulNT

/-- Entry (r, k) of a one-hot tile of `K` lanes built from the column of codes `v`: the lane counter
    compared with row `r`'s code. -/
theorem onehot_apply {K : ℕ} (hI : (⟨2, ![512, K]⟩ : Shape).Iotas .tc 32 [1])
    (hB : (⟨2, ![512, 1]⟩ : Shape).Broadcasts ⟨2, ![512, K]⟩)
    (hlt : FTy.bits .bf16 < FTy.bits .f32) (h132 : 1 < 32)
    (v : IVec ⟨2, ![512, 1]⟩ 32) (r : Fin 512) (k : Fin K) :
    (truncf .bf16 (sitofp (F := Ideal) .f32 (extui 32 (cmpi .eq (iota .tc ⟨2, ![512, K]⟩ 32 [1] hI)
        (broadcastTo ⟨2, ![512, K]⟩ v hB)) h132)) hlt : FVec Ideal ⟨2, ![512, K]⟩ .bf16) (ix2 r k)
      = hot (v (ix2 r (0 : Fin 1))) k.val := by
  show (((((IntOp.cmpi .eq (iota .tc ⟨2, ![512, K]⟩ 32 [1] hI (ix2 r k))
      (broadcastTo ⟨2, ![512, K]⟩ v hB (ix2 r k))).setWidth 32).toInt : ℤ) : ℝ) : EReal) = _
  rw [iota_single_apply, broadcastTo_apply v hB (ix2 r k) (ix2 r (0 : Fin 1)) (fun a => by
    match a with
    | ⟨0, _⟩ => show r.val = if (512 : ℕ) = 1 then 0 else r.val; rw [if_neg (by decide)]
    | ⟨1, _⟩ => show 0 = if (1 : ℕ) = 1 then 0 else k.val; rw [if_pos rfl])]
  exact hot_widened _ _

/-- A one-hot tile times the transpose of a stretch of weight columns, into zero: entry (r, q) is the sum
    over the lanes of the one-hot entry times the weight. -/
theorem hot_mm {K : ℕ} (d : DotDims ⟨2, ![512, K]⟩ ⟨2, ![128, K]⟩ ⟨2, ![512, 128]⟩)
    (hlc : d.lhsContracting = [1]) (hrc : d.rhsContracting = [1])
    (hln : d.lhsNonContracting = [0]) (hrn : d.rhsNonContracting = [0])
    (hlb : d.lhsBatch = []) (hrb : d.rhsBatch = [])
    (hI : (⟨2, ![512, K]⟩ : Shape).Iotas .tc 32 [1])
    (hB : (⟨2, ![512, 1]⟩ : Shape).Broadcasts ⟨2, ![512, K]⟩)
    (hlt : FTy.bits .bf16 < FTy.bits .f32) (h132 : 1 < 32)
    (v : IVec ⟨2, ![512, 1]⟩ 32) (wv : FVec Ideal ⟨2, ![128, K]⟩ .f32) (r : Fin 512) (q : Fin 128) :
    matmul d none (truncf .bf16 (sitofp (F := Ideal) .f32 (extui 32 (cmpi .eq (iota .tc ⟨2, ![512, K]⟩ 32 [1] hI)
        (broadcastTo ⟨2, ![512, K]⟩ v hB)) h132)) hlt) (truncf .bf16 wv hlt)
        (constant ⟨2, ![512, 128]⟩ .f32 0x00000000#32) (ix2 r q)
      = ∑ k : Fin K, hot (v (ix2 r (0 : Fin 1))) k.val * wv (ix2 q k) := by
  refine (matmul_nt_zero_apply d hlc hrc hln hrn hlb hrb none _ _ r q).trans ?_
  refine Finset.sum_congr rfl fun k _ => ?_
  exact congrArg₂ (· * ·) (onehot_apply hI hB hlt h132 v r k) rfl

/-- The dense block times the transpose of the first stretch of weight columns, into zero. -/
theorem dense_mm (d : DotDims ⟨2, ![512, 16]⟩ ⟨2, ![128, 16]⟩ ⟨2, ![512, 128]⟩)
    (hlc : d.lhsContracting = [1]) (hrc : d.rhsContracting = [1])
    (hln : d.lhsNonContracting = [0]) (hrn : d.rhsNonContracting = [0])
    (hlb : d.lhsBatch = []) (hrb : d.rhsBatch = [])
    (hlt : FTy.bits .bf16 < FTy.bits .f32)
    (x : FVec Ideal ⟨2, ![512, 16]⟩ .f32) (wv : FVec Ideal ⟨2, ![128, 16]⟩ .f32) (r : Fin 512) (q : Fin 128) :
    matmul d none (truncf .bf16 x hlt) (truncf .bf16 wv hlt) (constant ⟨2, ![512, 128]⟩ .f32 0x00000000#32) (ix2 r q)
      = ∑ k : Fin 16, x (ix2 r k) * wv (ix2 q k) :=
  matmul_nt_zero_apply d hlc hrc hln hrn hlb hrb none _ _ r q

/-- The first four groups, accumulated: entry (r, q). -/
theorem pay1_apply (v0 v1 v2 : Vec Ideal S512x1 .i32) (v3 : Vec Ideal S512x16 .f32) (v4 : Vec Ideal S128x16 .f32)
    (v8 : Vec Ideal S128x24 .f32) (v18 : Vec Ideal S128x7 .f32) (v28 : Vec Ideal S128x100 .f32)
    (r : Fin 512) (q : Fin 128) :
    k0_pay1 (F := Ideal) v0 v1 v2 v3 v4 v8 v18 v28 (ix2 r q)
      = ((∑ k : Fin 16, v3 (ix2 r k) * v4 (ix2 q k)
        + ∑ k : Fin 24, hot (v0 (ix2 r (0 : Fin 1))) k.val * v8 (ix2 q k))
        + ∑ k : Fin 7, hot (v1 (ix2 r (0 : Fin 1))) k.val * v18 (ix2 q k))
        + ∑ k : Fin 100, hot (v2 (ix2 r (0 : Fin 1))) k.val * v28 (ix2 q k) := by
  unfold k0_pay1
  exact congrArg₂ (· + ·) (congrArg₂ (· + ·) (congrArg₂ (· + ·)
    (dense_mm _ rfl rfl rfl rfl rfl rfl _ v3 v4 r q)
    (hot_mm _ rfl rfl rfl rfl rfl rfl _ _ _ _ v0 v8 r q))
    (hot_mm _ rfl rfl rfl rfl rfl rfl _ _ _ _ v1 v18 r q))
    (hot_mm _ rfl rfl rfl rfl rfl rfl _ _ _ _ v2 v28 r q)

/-- The bias row laid along every row of the block: entry (r, q) is the row's entry q. -/
theorem bias_apply (v : Vec Ideal S1x128 .f32) (hc : S1x128.ShapeCasts S1x128) (hb : S1x128.Broadcasts S512x128)
    (r : Fin 512) (q : Fin 128) :
    broadcastTo S512x128 (shapeCast S1x128 v hc) hb (ix2 r q) = v (ix2 (0 : Fin 1) q) := by
  rw [shapeCast_self]
  exact broadcastTo_apply v hb (ix2 r q) (ix2 (0 : Fin 1) q) (fun a => by
    match a with
    | ⟨0, _⟩ => show 0 = if (1 : ℕ) = 1 then 0 else r.val; rw [if_pos rfl]
    | ⟨1, _⟩ => show q.val = if (128 : ℕ) = 1 then 0 else q.val; rw [if_neg (by decide)])

/-- The three cross groups added to what was accumulated, then the bias and the clamp: entry (r, q). -/
theorem pay2_apply (v0 v1 v2 : Vec Ideal S512x1 .i32) (v37 : FVec Ideal S512x128 .f32)
    (v47 : Vec Ideal S128x168 .f32) (v57 : Vec Ideal S128x2400 .f32) (v67 : Vec Ideal S128x700 .f32)
    (v77 : Vec Ideal S1x128 .f32) (r : Fin 512) (q : Fin 128) :
    k0_pay2 (F := Ideal) v0 v1 v2 v37 7#32 v47 v57 v67 v77 (ix2 r q)
      = max ((((v37 (ix2 r q)
        + ∑ k : Fin 168, hot (IntOp.addi (IntOp.muli (v0 (ix2 r (0 : Fin 1))) 7#32) (v1 (ix2 r (0 : Fin 1)))) k.val * v47 (ix2 q k))
        + ∑ k : Fin 2400, hot (IntOp.addi (IntOp.muli (v0 (ix2 r (0 : Fin 1))) 100#32) (v2 (ix2 r (0 : Fin 1)))) k.val * v57 (ix2 q k))
        + ∑ k : Fin 700, hot (IntOp.addi (IntOp.muli (v1 (ix2 r (0 : Fin 1))) 100#32) (v2 (ix2 r (0 : Fin 1)))) k.val * v67 (ix2 q k))
        + v77 (ix2 (0 : Fin 1) q)) (Ideal.ofBits .f32 0x00000000#32) := by
  unfold k0_pay2
  exact congrArg₂ max (congrArg₂ (· + ·) (congrArg₂ (· + ·) (congrArg₂ (· + ·) (congrArg₂ (· + ·) rfl
    (hot_mm _ rfl rfl rfl rfl rfl rfl _ _ _ _ (addi (muli v0 (broadcast S512x1 7#32)) v1) v47 r q))
    (hot_mm _ rfl rfl rfl rfl rfl rfl _ _ _ _ (addi (muli v0 (broadcast S512x1 100#32)) v2) v57 r q))
    (hot_mm _ rfl rfl rfl rfl rfl rfl _ _ _ _ (addi (muli v1 (broadcast S512x1 100#32)) v2) v67 r q))
    (bias_apply v77 _ _ r q)) rfl

/-- A load of an [a, b] piece at offsets (o0, o1) of an [A, B] buffer, read at (p, k), is the buffer at
    (o0 + p, o1 + k). -/
theorem ld2 {Val : EltTy → Type} {e : EltTy} {A B a b : ℕ} (X : (⟨2, ![A, B]⟩ : Shape).Idx → Val e) (o0 o1 : ℕ)
    (inb : ∀ c, (![o0, o1] : Fin 2 → ℕ) c + (![a, b] : Fin 2 → ℕ) c ≤ (⟨2, ![A, B]⟩ : Shape).size c)
    (p : Fin a) (k : Fin b) (i0 : Fin A) (i1 : Fin B) (h0 : i0.val = o0 + p.val) (h1 : i1.val = o1 + k.val) :
    View.ld X (Rect.unit (s := ⟨2, ![A, B]⟩) ![o0, o1] ![a, b] inb) (ix2 p k) = X (ix2 i0 i1) := by
  show X _ = X _
  congr 1
  funext c
  apply Fin.ext
  match c with
  | ⟨0, _⟩ => show o0 + 1 * p.val = i0.val; omega
  | ⟨1, _⟩ => show o1 + 1 * k.val = i1.val; omega

theorem hz : (![0, 0] : Fin 2 → Nat) = fun _ => 0 := funext fun a => by fin_cases a <;> rfl

/-- THE BLOCK'S ENTRY: what the body leaves at (r, q) of its output block is the layer's entry computed from
    row r of the dense and sparse blocks, row q of the weight block and entry q of the bias row. -/
theorem out_entry (x0 : Vec Ideal S512x16 .f32) (x1 : Vec Ideal S512x3 .i32) (x2 : Vec Ideal S128x3415 .f32)
    (x3 : Vec Ideal S1x128 .f32) (r : Fin 512) (q : Fin 128) :
    out0_4 (F := Ideal) x0 x1 x2 x3 (ix2 r q)
      = entry (fun k => x0 (ix2 r k)) (x1 (ix2 r (0 : Fin 3))) (x1 (ix2 r (1 : Fin 3))) (x1 (ix2 r (2 : Fin 3)))
          (fun k => x2 (ix2 q k)) (x3 (ix2 (0 : Fin 1) q)) := by
  unfold out0_4
  rw [View.canon_unit_zero hz]
  refine (pay2_apply _ _ _ _ _ _ _ _ r q).trans ?_
  rw [pay1_apply]
  have e0 : View.ld x1 r0_0 (ix2 r (0 : Fin 1)) = x1 (ix2 r (0 : Fin 3)) := ld2 x1 0 0 _ r 0 r 0 (by omega) rfl
  have e1 : View.ld x1 r0_1 (ix2 r (0 : Fin 1)) = x1 (ix2 r (1 : Fin 3)) := ld2 x1 0 1 _ r 0 r 1 (by omega) rfl
  have e2 : View.ld x1 r0_2 (ix2 r (0 : Fin 1)) = x1 (ix2 r (2 : Fin 3)) := ld2 x1 0 2 _ r 0 r 2 (by omega) rfl
  rw [e0, e1, e2]
  unfold entry wide
  refine congrArg₂ max (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) rfl
  · exact Finset.sum_congr rfl fun k _ => congrArg₂ (· * ·)
      (ld2 x0 0 0 _ r k r k (by omega) (by omega)) (ld2 x2 0 0 _ q k q ⟨k.val, by omega⟩ (by omega) (by simp))
  · exact Finset.sum_congr rfl fun k _ => congrArg₂ (· * ·) rfl (ld2 x2 0 16 _ q k q ⟨16 + k.val, by omega⟩ (by omega) rfl)
  · exact Finset.sum_congr rfl fun k _ => congrArg₂ (· * ·) rfl (ld2 x2 0 40 _ q k q ⟨40 + k.val, by omega⟩ (by omega) rfl)
  · exact Finset.sum_congr rfl fun k _ => congrArg₂ (· * ·) rfl (ld2 x2 0 47 _ q k q ⟨47 + k.val, by omega⟩ (by omega) rfl)
  · exact Finset.sum_congr rfl fun k _ => congrArg₂ (· * ·) rfl (ld2 x2 0 147 _ q k q ⟨147 + k.val, by omega⟩ (by omega) rfl)
  · exact Finset.sum_congr rfl fun k _ => congrArg₂ (· * ·) rfl (ld2 x2 0 315 _ q k q ⟨315 + k.val, by omega⟩ (by omega) rfl)
  · exact Finset.sum_congr rfl fun k _ => congrArg₂ (· * ·) rfl (ld2 x2 0 2715 _ q k q ⟨2715 + k.val, by omega⟩ (by omega) rfl)
  · exact ld2 x3 0 0 _ 0 q 0 q rfl (by omega)

end Cert.KernelIdeal.Payload

end
-- ==== Proof.Blocks.lean ====
/-
  The kernel's result array after the run is `WideSpec.result` of the argument arrays.

  Grid point `t` handles rows `512 t … 512 t + 511`: its dense and sparse blocks are those rows of the
  inputs, its weight block is the whole weight matrix, its bias block the one-row copy of the bias that the
  host made before the call, and it writes back the same rows of the result.  So what point `t` writes back
  is block `t` of ONE whole-array function of the arguments (`Payload.out_entry` gives the entry; the block
  reads are coordinate arithmetic on the decided index maps), the 64 blocks cover the result's rows, and the
  array ends holding that function.
-/
import proofs.«164826_j75728863363405_1_alg».proof.Proof.Gen.KernelIdeal.Value
import proofs.«164826_j75728863363405_1_alg».proof.Proof.Payload
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.WideSpec
open Idealize.ShloMosaic.Pipeline (Dat)

variable (m : (ℓ : Loc nD τ sig) → Buf (Elt Ideal) ℓ) (ρ : Dev nD → PrngReg)

/-- The bias window's array as the call finds it: the bias vector reshaped to one row. -/
theorem V_bias (c : Dev nD) :
    (V m c main_v0 : S1x128.Idx → EReal) = shapeCast S1x128 (m ((c : Thread nD τ).loc main_arg3)) shapeCasts_S128_S1x128 := by
  dsimp only [Gen.V, Gen.hostOps0]; after_results; rfl

/-- The index maps over the grid: the dense, sparse and result windows move down the rows with the point,
    the weight and bias windows stay. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 :=
  (by decide +kernel : ∀ t : Fin grid0.N, _)

/-- Every block of rows is some point's. -/
theorem idx_onto : ∀ q0 : Fin 64, ∃ t : Fin cfg0.N, win0_4.index t = ![q0.val, 0] :=
  (by decide +kernel : ∀ q0 : Fin 64, ∃ t : Fin grid0.N, win0_4.index t = ![q0.val, 0])

/-- Two entries built from equal data are equal. -/
theorem entry_congr {d d' : Fin 16 → EReal} {s0 s0' s1 s1' s2 s2' : BitVec 32} {w w' : Fin 3415 → EReal} {b b' : EReal}
    (hd : d = d') (h0 : s0 = s0') (h1 : s1 = s1') (h2 : s2 = s2') (hw : w = w') (hb : b = b') :
    entry d s0 s1 s2 w b = entry d' s0' s1' s2' w' b' := by
  subst hd h0 h1 h2 hw hb; rfl

/-- WHAT POINT `t` WRITES BACK is block `t` of the layer's result of the arrays as the call finds them. -/
theorem flushed_eq (c : Dev nD) (t : Fin cfg0.N) :
    (dats m 0 c).flushed 4 t = ((cfg0.win 4).blk t).view.read (Elt Ideal)
      (result (V m c main_arg0) (V m c main_arg1) (V m c main_arg2) (m ((c : Thread nD τ).loc main_arg3))) := by
  rw [Value.flushed4]
  obtain ⟨e00, e01, e10, e11, e20, e21, e30, e31, e41⟩ := idx_facts t
  funext y
  obtain ⟨r, q, rfl⟩ : ∃ (r : Fin 512) (q : Fin 128), y = ix2 r q := ⟨y 0, y 1, eq_ix2 y⟩
  show out0_4 (iblk m c 0 t) (iblk m c 1 t) (iblk m c 2 t) (iblk m c 3 t) (ix2 r q)
      = result (V m c main_arg0) (V m c main_arg1) (V m c main_arg2) (m ((c : Thread nD τ).loc main_arg3))
          (((cfg0.win 4).blk t).view.emb (ix2 r q))
  refine (Payload.out_entry _ _ _ _ r q).trans ?_
  have h0 : ∀ k : Fin 16, iblk m c 0 t (ix2 r k)
      = V m c main_arg0 (ix2 ((((cfg0.win 4).blk t).view.emb (ix2 r q)) 0) k) := fun k => by
    show V m c main_arg0 (((cfg0.win 0).blk t).view.emb (ix2 r k)) = _
    refine congrArg (V m c main_arg0) (funext fun a => Fin.ext ?_)
    match a with
    | ⟨0, _⟩ => show win0_0.index t (0 : Fin 2) * 512 + 1 * r.val = win0_4.index t (0 : Fin 2) * 512 + 1 * r.val; omega
    | ⟨1, _⟩ => show win0_0.index t (1 : Fin 2) * 16 + 1 * k.val = k.val; omega
  have h1 : ∀ j : Fin 3, iblk m c 1 t (ix2 r j)
      = V m c main_arg1 (ix2 ((((cfg0.win 4).blk t).view.emb (ix2 r q)) 0) j) := fun j => by
    show V m c main_arg1 (((cfg0.win 1).blk t).view.emb (ix2 r j)) = _
    refine congrArg (V m c main_arg1) (funext fun a => Fin.ext ?_)
    match a with
    | ⟨0, _⟩ => show win0_1.index t (0 : Fin 2) * 512 + 1 * r.val = win0_4.index t (0 : Fin 2) * 512 + 1 * r.val; omega
    | ⟨1, _⟩ => show win0_1.index t (1 : Fin 2) * 3 + 1 * j.val = j.val; omega
  have h2 : ∀ k : Fin 3415, iblk m c 2 t (ix2 q k)
      = V m c main_arg2 (ix2 ((((cfg0.win 4).blk t).view.emb (ix2 r q)) 1) k) := fun k => by
    show V m c main_arg2 (((cfg0.win 2).blk t).view.emb (ix2 q k)) = _
    refine congrArg (V m c main_arg2) (funext fun a => Fin.ext ?_)
    match a with
    | ⟨0, _⟩ => show win0_2.index t (0 : Fin 2) * 128 + 1 * q.val = win0_4.index t (1 : Fin 2) * 128 + 1 * q.val; omega
    | ⟨1, _⟩ => show win0_2.index t (1 : Fin 2) * 3415 + 1 * k.val = k.val; omega
  have h3 : iblk m c 3 t (ix2 (0 : Fin 1) q)
      = m ((c : Thread nD τ).loc main_arg3) (ix1 ((((cfg0.win 4).blk t).view.emb (ix2 r q)) 1)) := by
    show V m c main_v0 (((cfg0.win 3).blk t).view.emb (ix2 (0 : Fin 1) q)) = _
    rw [V_bias]
    refine shapeCast_apply _ shapeCasts_S128_S1x128 _ _ ?_
    rw [Shape.rowMajor_val_one, Shape.rowMajor_val_two]
    show win0_4.index t (1 : Fin 2) * 128 + 1 * q.val
      = (win0_3.index t (0 : Fin 2) * 1 + 1 * 0) * 128 + (win0_3.index t (1 : Fin 2) * 128 + 1 * q.val)
    omega
  exact entry_congr (funext h0) (h1 0) (h1 1) (h1 2) (funext h2) h3

/-- An index of the result is in point `t`'s block iff each coordinate is in the block's range. -/
theorem mem_blk (t : Fin cfg0.N) (i : S32768x128.Idx) :
    i ∈ ((cfg0.win 4).blk t).view.set ↔ ∀ a : Fin 2, win0_4.index t a * S512x128.size a ≤ (i a).val
      ∧ (i a).val < win0_4.index t a * S512x128.size a + S512x128.size a := by
  show i ∈ ((View.whole main_v1).slice (win0_4.rect t)).set ↔ _
  rw [View.set_slice_whole, Rect.mem_set_unit]
  exact Iff.rfl

/-- The 64 blocks of 512 rows cover the result. -/
theorem cover (i : S32768x128.Idx) : ∃ t : Fin cfg0.N, (cfg0.win 4).flush t = true ∧ i ∈ ((cfg0.win 4).blk t).view.set := by
  have hi0 : (i 0).val < 32768 := (i 0).isLt
  have hi1 : (i 1).val < 128 := (i 1).isLt
  obtain ⟨t, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 128 ≤ (i 1).val ∧ (i 1).val < win0_4.index t (1 : Fin 2) * 128 + 128
    omega

/-- THE RESULT ARRAY after the run: the layer's result of the argument arrays. -/
theorem final (c : Dev nD) : (dats m 0 c).arrAt 4 cfg0.N
    = result (m ((c : Thread nD τ).loc main_arg0)) (m ((c : Thread nD τ).loc main_arg1))
        (m ((c : Thread nD τ).loc main_arg2)) (m ((c : Thread nD τ).loc main_arg3)) := by
  have h := (dats m 0 c).arrAt_eq_of_cover 4
    (result (V m c main_arg0) (V m c main_arg1) (V m c main_arg2) (m ((c : Thread nD τ).loc main_arg3)))
    (fun t _ => flushed_eq m c t) (cover)
  rw [V_main_arg0, V_main_arg1, V_main_arg2] at h
  exact h

/-- The kernel's run with its result named: the layer's result of the arguments, the arguments unchanged. -/
theorem run : θ_run defs (onTc (τ := τ) (main (F := Ideal))) ⟨m, fun _ => 0, ρ⟩ fun r => ∀ c : Dev nD,
      r.2.mem ((c : Thread nD τ).loc main_v1)
        = result (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.RefValue.lean ====
/-
  The reference's result is `WideSpec.result` of its arguments.

  Its feature matrix is the concatenation, along the columns, of the dense input and six one-hot matrices;
  a one-hot matrix is an equality test between a column of codes laid along the lanes and a lane counter
  laid down the rows, converted to 0 or 1.  The codes are the three sparse columns and their pairwise
  crosses `a * size_b + b`.  Its product with the transposed weights is, entry by entry, the sum over the
  3415 columns; split into the seven groups (`WideSpec.sum_groups`), each group's stretch of the
  concatenation is read from its own piece, and the sum becomes `WideSpec.wide`.  The bias is laid along
  the rows and the result clamped at zero.
-/
import proofs.«164826_j75728863363405_1_alg».proof.Proof.Gen.ReferenceIdeal.Read
import proofs.«164826_j75728863363405_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.WideSpec

/-- A one-hot matrix of `K` lanes made from a vector of codes: entry (p, k) tests code p against lane k. -/
theorem host_onehot_apply {K : ℕ}
    (h0 : (⟨1, ![32768]⟩ : Shape).BroadcastsInDim ⟨2, ![32768, 1]⟩ ![0])
    (h1 : (⟨2, ![32768, 1]⟩ : Shape).BroadcastsInDim ⟨2, ![32768, K]⟩ ![0, 1])
    (h2 : (⟨2, ![1, K]⟩ : Shape).BroadcastsInDim ⟨2, ![32768, K]⟩ ![0, 1])
    (code : IVec ⟨1, ![32768]⟩ 32) (p : Fin 32768) (k : Fin K) :
    (uitofp (F := Ideal) .f32 (cmpi .eq
        (broadcastInDim ⟨2, ![32768, K]⟩ ![0, 1] h1 (broadcastInDim ⟨2, ![32768, 1]⟩ ![0] h0 code))
        (broadcastInDim ⟨2, ![32768, K]⟩ ![0, 1] h2 (iotaInDim ⟨2, ![1, K]⟩ 32 1))) : FVec Ideal ⟨2, ![32768, K]⟩ .f32) (ix2 p k)
      = hot (code (ix1 p)) k.val := by
  show ((((IntOp.cmpi .eq
      (broadcastInDim ⟨2, ![32768, K]⟩ ![0, 1] h1 (broadcastInDim ⟨2, ![32768, 1]⟩ ![0] h0 code) (ix2 p k))
      (broadcastInDim ⟨2, ![32768, K]⟩ ![0, 1] h2 (iotaInDim ⟨2, ![1, K]⟩ 32 1) (ix2 p k))).toNat : ℕ) : ℝ) : EReal) = _
  rw [broadcastInDim_apply ![0, 1] h1 _ (ix2 p k) (ix2 p (0 : Fin 1)) (fun a => by
      match a with
      | ⟨0, _⟩ => show p.val = if (32768 : ℕ) = 1 then 0 else p.val; rw [if_neg (by decide)]
      | ⟨1, _⟩ => show 0 = if (1 : ℕ) = 1 then 0 else k.val; rw [if_pos rfl]),
    broadcastInDim_apply ![0] h0 code (ix2 p (0 : Fin 1)) (ix1 p) (fun a => by
      match a with
      | ⟨0, _⟩ => show p.val = if (32768 : ℕ) = 1 then 0 else p.val; rw [if_neg (by decide)]),
    broadcastInDim_apply ![0, 1] h2 _ (ix2 p k) (ix2 (0 : Fin 1) k) (fun a => by
      match a with
      | ⟨0, _⟩ => show 0 = if (1 : ℕ) = 1 then 0 else p.val; rw [if_pos rfl]
      | ⟨1, _⟩ =>
        show k.val = if K = 1 then 0 else k.val
        split
        · have := k.isLt; omega
        · rfl)]
  rfl

/-- Column `c` of the sparse input as a vector: entry p is the input at (p, c). -/
theorem col_apply (off : ℕ) (hs : S32768x3.Slices ![0, off] S32768x1) (hc : S32768x1.ShapeCasts S32768)
    (x1 : IVec S32768x3 32) (p : Fin 32768) (c : Fin 3) (hoff : c.val = off) :
    shapeCast S32768 (extractStridedSlice S32768x1 ![0, off] x1 hs) hc (ix1 p) = x1 (ix2 p c) := by
  rw [shapeCast_apply _ hc (ix1 p) (ix2 p (0 : Fin 1)) (by
      rw [Shape.rowMajor_val_two, Shape.rowMajor_val_one]; show p.val * 1 + 0 = p.val; omega),
    extractStridedSlice_apply ![0, off] x1 hs (ix2 p (0 : Fin 1)) (ix2 p c) (fun a => by
      match a with
      | ⟨0, _⟩ => show p.val = 0 + p.val; omega
      | ⟨1, _⟩ => show c.val = off + 0; omega)]

variable (x0 : (⟨S32768x16, .f32⟩ : BufTy).Contents (Elt Ideal)) (x1 : (⟨S32768x3, .i32⟩ : BufTy).Contents (Elt Ideal))
  (x2 : (⟨S128x3415, .f32⟩ : BufTy).Contents (Elt Ideal)) (x3 : (⟨S128, .f32⟩ : BufTy).Contents (Elt Ideal))

/-- The three sparse columns as the reference slices them out (it does so several times; each is the same). -/
theorem v1_apply (p : Fin 32768) : val_main_v1 (F := Ideal) x1 (ix1 p) = x1 (ix2 p (0 : Fin 3)) := col_apply 0 _ _ x1 p 0 rfl
theorem v4_apply (p : Fin 32768) : val_main_v4 (F := Ideal) x1 (ix1 p) = x1 (ix2 p (1 : Fin 3)) := col_apply 1 _ _ x1 p 1 rfl
theorem v7_apply (p : Fin 32768) : val_main_v7 (F := Ideal) x1 (ix1 p) = x1 (ix2 p (2 : Fin 3)) := col_apply 2 _ _ x1 p 2 rfl
theorem v10_apply (p : Fin 32768) : val_main_v10 (F := Ideal) x1 (ix1 p) = x1 (ix2 p (0 : Fin 3)) := col_apply 0 _ _ x1 p 0 rfl
theorem v14_apply (p : Fin 32768) : val_main_v14 (F := Ideal) x1 (ix1 p) = x1 (ix2 p (1 : Fin 3)) := col_apply 1 _ _ x1 p 1 rfl
theorem v18_apply (p : Fin 32768) : val_main_v18 (F := Ideal) x1 (ix1 p) = x1 (ix2 p (0 : Fin 3)) := col_apply 0 _ _ x1 p 0 rfl
theorem v22_apply (p : Fin 32768) : val_main_v22 (F := Ideal) x1 (ix1 p) = x1 (ix2 p (2 : Fin 3)) := col_apply 2 _ _ x1 p 2 rfl
theorem v26_apply (p : Fin 32768) : val_main_v26 (F := Ideal) x1 (ix1 p) = x1 (ix2 p (1 : Fin 3)) := col_apply 1 _ _ x1 p 1 rfl
theorem v30_apply (p : Fin 32768) : val_main_v30 (F := Ideal) x1 (ix1 p) = x1 (ix2 p (2 : Fin 3)) := col_apply 2 _ _ x1 p 2 rfl

/-- The three cross codes, in 32-bit arithmetic. -/
theorem v15_apply (p : Fin 32768) : val_main_v15 (F := Ideal) x1 (ix1 p)
    = IntOp.addi (IntOp.muli (x1 (ix2 p (0 : Fin 3))) 7#32) (x1 (ix2 p (1 : Fin 3))) := by
  rw [val_main_v15_apply, val_main_v12_apply, val_main_v11_apply, val_main_c_apply, v10_apply, v14_apply]
theorem v23_apply (p : Fin 32768) : val_main_v23 (F := Ideal) x1 (ix1 p)
    = IntOp.addi (IntOp.muli (x1 (ix2 p (0 : Fin 3))) 100#32) (x1 (ix2 p (2 : Fin 3))) := by
  rw [val_main_v23_apply, val_main_v20_apply, val_main_v19_apply, val_main_c_0_apply, v18_apply, v22_apply]
theorem v31_apply (p : Fin 32768) : val_main_v31 (F := Ideal) x1 (ix1 p)
    = IntOp.addi (IntOp.muli (x1 (ix2 p (1 : Fin 3))) 100#32) (x1 (ix2 p (2 : Fin 3))) := by
  rw [val_main_v31_apply, val_main_v28_apply, val_main_v27_apply, val_main_c_1_apply, v26_apply, v30_apply]

/-- The six one-hot matrices at an entry. -/
theorem oh0_apply (p : Fin 32768) (k : Fin 24) : val_main_v2 (F := Ideal) x1 (ix2 p k) = hot (x1 (ix2 p (0 : Fin 3))) k.val :=
  (host_onehot_apply _ _ _ (val_main_v1 (F := Ideal) x1) p k).trans (by rw [v1_apply])
theorem oh1_apply (p : Fin 32768) (k : Fin 7) : val_main_v5 (F := Ideal) x1 (ix2 p k) = hot (x1 (ix2 p (1 : Fin 3))) k.val :=
  (host_onehot_apply _ _ _ (val_main_v4 (F := Ideal) x1) p k).trans (by rw [v4_apply])
theorem oh2_apply (p : Fin 32768) (k : Fin 100) : val_main_v8 (F := Ideal) x1 (ix2 p k) = hot (x1 (ix2 p (2 : Fin 3))) k.val :=
  (host_onehot_apply _ _ _ (val_main_v7 (F := Ideal) x1) p k).trans (by rw [v7_apply])
theorem oh01_apply (p : Fin 32768) (k : Fin 168) : val_main_v16 (F := Ideal) x1 (ix2 p k)
    = hot (IntOp.addi (IntOp.muli (x1 (ix2 p (0 : Fin 3))) 7#32) (x1 (ix2 p (1 : Fin 3)))) k.val :=
  (host_onehot_apply _ _ _ (val_main_v15 (F := Ideal) x1) p k).trans (by rw [v15_apply])
theorem oh02_apply (p : Fin 32768) (k : Fin 2400) : val_main_v24 (F := Ideal) x1 (ix2 p k)
    = hot (IntOp.addi (IntOp.muli (x1 (ix2 p (0 : Fin 3))) 100#32) (x1 (ix2 p (2 : Fin 3)))) k.val :=
  (host_onehot_apply _ _ _ (val_main_v23 (F := Ideal) x1) p k).trans (by rw [v23_apply])
theorem oh12_apply (p : Fin 32768) (k : Fin 700) : val_main_v32 (F := Ideal) x1 (ix2 p k)
    = hot (IntOp.addi (IntOp.muli (x1 (ix2 p (1 : Fin 3))) 100#32) (x1 (ix2 p (2 : Fin 3)))) k.val :=
  (host_onehot_apply _ _ _ (val_main_v31 (F := Ideal) x1) p k).trans (by rw [v31_apply])

/-- The transposed weights at (k, q) are the weights at (q, k). -/
theorem wt_apply (p : Fin 32768) (q : Fin 128) (k : Fin 3415) :
    val_main_v34 (F := Ideal) x2 (ridx_main_v35 (ix2 p q) k) = x2 (ix2 q k) := by
  rw [val_main_v34_apply]
  exact congrArg x2 (funext fun a => Fin.ext (by
    match a with
    | ⟨0, _⟩ => rfl
    | ⟨1, _⟩ => rfl))

/-- The bias laid along the rows: entry (p, q) is bias q. -/
theorem bias_apply (p : Fin 32768) (q : Fin 128) : val_main_v37 (F := Ideal) x3 (ix2 p q) = x3 (ix1 q) := by
  rw [val_main_v37_apply, val_main_v36_apply]
  exact congrArg x3 (funext fun a => Fin.ext (by
    match a with
    | ⟨0, _⟩ => rfl))

/-- The pieces the reference concatenates along the columns, in order. -/
abbrev pieces : List ((s : Shape) × (s.Idx → EReal)) :=
  [⟨S32768x16, x0⟩, ⟨S32768x24, val_main_v2 (F := Ideal) x1⟩, ⟨S32768x7, val_main_v5 (F := Ideal) x1⟩,
    ⟨S32768x100, val_main_v8 (F := Ideal) x1⟩, ⟨S32768x168, val_main_v16 (F := Ideal) x1⟩,
    ⟨S32768x2400, val_main_v24 (F := Ideal) x1⟩, ⟨S32768x700, val_main_v32 (F := Ideal) x1⟩]

/-- A column `c` of the feature matrix that lies in piece `g` of the concatenation, `k` columns after the
    `o` columns of the pieces before it: the piece's own column `k`. -/
theorem cat_apply (p : Fin 32768) (q : Fin 128) (g : ℕ) (hg : g < 7) (K : ℕ)
    (y : (⟨2, ![32768, K]⟩ : Shape).Idx → EReal)
    (hy : (pieces x0 x1)[g]'hg = ⟨⟨2, ![32768, K]⟩, y⟩)
    (o : ℕ)
    (ho : ((((pieces x0 x1).take g).map (·.1)).map
        (fun s => if h : s.rank = S32768x3415.rank then s.size ((1 : Fin 2).cast h.symm) else 0)).sum = o)
    (k : Fin K) (c : Fin 3415) (hc : o + k.val = c.val) :
    val_main_v33 (F := Ideal) x0 x1 (lidx_main_v35 (ix2 p q) c) = y (ix2 p k) := by
  unfold val_main_v33
  refine concatenate_apply_piece (t := S32768x3415) (1 : Fin 2) (pieces x0 x1) _ (lidx_main_v35 (ix2 p q) c) g hg _ y hy rfl o ho
    (ix2 p k) (fun b hb => ?_) ?_
  · match b with
    | ⟨0, _⟩ => rfl
    | ⟨1, _⟩ => exact absurd rfl hb
  · exact hc

/-- THE REFERENCE'S PRODUCT at (p, q): the seven group sums. -/
theorem dot_apply (p : Fin 32768) (q : Fin 128) :
    val_main_v35 (F := Ideal) x0 x1 x2 (ix2 p q)
      = wide (fun k => x0 (ix2 p k)) (x1 (ix2 p (0 : Fin 3))) (x1 (ix2 p (1 : Fin 3))) (x1 (ix2 p (2 : Fin 3)))
          (fun k => x2 (ix2 q k)) := by
  rw [val_main_v35_apply, sum_groups]
  unfold wide
  refine congrArg₂ (· + ·) (congrArg₂ (· + ·) (congrArg₂ (· + ·) (congrArg₂ (· + ·) (congrArg₂ (· + ·)
    (congrArg₂ (· + ·) ?_ ?_) ?_) ?_) ?_) ?_) ?_
  · exact Finset.sum_congr rfl fun k _ => congrArg₂ (· * ·)
      (cat_apply x0 x1 p q 0 (by decide) 16 x0 rfl 0 rfl k _ (by simp)) (wt_apply x2 p q _)
  · exact Finset.sum_congr rfl fun k _ => congrArg₂ (· * ·)
      ((cat_apply x0 x1 p q 1 (by decide) 24 _ rfl 16 rfl k _ rfl).trans (oh0_apply x1 p k)) (wt_apply x2 p q _)
  · exact Finset.sum_congr rfl fun k _ => congrArg₂ (· * ·)
      ((cat_apply x0 x1 p q 2 (by decide) 7 _ rfl 40 rfl k _ rfl).trans (oh1_apply x1 p k)) (wt_apply x2 p q _)
  · exact Finset.sum_congr rfl fun k _ => congrArg₂ (· * ·)
      ((cat_apply x0 x1 p q 3 (by decide) 100 _ rfl 47 rfl k _ rfl).trans (oh2_apply x1 p k)) (wt_apply x2 p q _)
  · exact Finset.sum_congr rfl fun k _ => congrArg₂ (· * ·)
      ((cat_apply x0 x1 p q 4 (by decide) 168 _ rfl 147 rfl k _ rfl).trans (oh01_apply x1 p k)) (wt_apply x2 p q _)
  · exact Finset.sum_congr rfl fun k _ => congrArg₂ (· * ·)
      ((cat_apply x0 x1 p q 5 (by decide) 2400 _ rfl 315 rfl k _ rfl).trans (oh02_apply x1 p k)) (wt_apply x2 p q _)
  · exact Finset.sum_congr rfl fun k _ => congrArg₂ (· * ·)
      ((cat_apply x0 x1 p q 6 (by decide) 700 _ rfl 2715 rfl k _ rfl).trans (oh12_apply x1 p k)) (wt_apply x2 p q _)

/-- THE REFERENCE'S RESULT is the layer's result. -/
theorem ref_eq : val_main_v39 (F := Ideal) x0 x1 x2 x3 = result x0 x1 x2 x3 := by
  funext i
  obtain ⟨p, q, rfl⟩ : ∃ (p : Fin 32768) (q : Fin 128), i = ix2 p q := ⟨i 0, i 1, eq_ix2 i⟩
  rw [val_main_v39_apply, val_main_v38_apply, dot_apply, bias_apply, val_main_call6_v0_apply, val_main_call6_cst_apply]
  rfl

end Cert.ReferenceIdeal.RefValue

end
-- ==== Proof.lean ====
/-
  A "wide" layer: features = [dense | onehot(s0) | onehot(s1) | onehot(s2) | onehot(s0·7+s1) | onehot(s0·100+s2)
  | onehot(s1·100+s2)] (3415 columns), result = relu(features · Wᵀ + b), for 32768 rows and 128 output units.

  The reference builds the feature matrix and multiplies it by the transposed weights.  The kernel never builds
  it: for each block of 512 rows it multiplies each of the seven groups of feature columns by the matching
  stretch of weight columns and adds the seven products, then the bias, then clamps at zero.  Over the extended
  reals the two agree entry by entry because a sum over the 3415 columns is the sum of the sums over the seven
  consecutive stretches (commutativity and associativity of addition only, so the inputs' finiteness is never
  used), a product accumulated into zero is the plain sum, narrowing to bf16 changes no value, and both sides
  make a one-hot entry by testing a 32-bit code against a lane number — so a code outside its lanes gives a
  zero row on both sides, and the cross codes wrap identically.

  Proof/Spec.lean states the common value (`WideSpec.result`) and the splitting of the sum; Proof/Payload.lean
  reads the kernel body's stored block at an entry; Proof/Blocks.lean passes from the 64 blocks to the whole
  result array; Proof/RefValue.lean reads the reference's result at an entry, its concatenation piece by piece.
  The three frames are the generated runs; the kernel's idealization rewrote nothing, so `preserves` is trivial.
-/
import proofs.«164826_j75728863363405_1_alg».proof.Defs
import proofs.«164826_j75728863363405_1_alg».proof.Proof.Gen.Kernel
import proofs.«164826_j75728863363405_1_alg».proof.Proof.Gen.Kernel.Skeleton
import proofs.«164826_j75728863363405_1_alg».proof.Proof.Gen.Kernel.Launch
import proofs.«164826_j75728863363405_1_alg».proof.Proof.Gen.Kernel.Points
import proofs.«164826_j75728863363405_1_alg».proof.Proof.Gen.Kernel.Frame
import proofs.«164826_j75728863363405_1_alg».proof.Proof.Gen.KernelIdeal
import proofs.«164826_j75728863363405_1_alg».proof.Proof.Gen.KernelIdeal.Skeleton
import proofs.«164826_j75728863363405_1_alg».proof.Proof.Gen.KernelIdeal.Launch
import proofs.«164826_j75728863363405_1_alg».proof.Proof.Gen.KernelIdeal.Points
import proofs.«164826_j75728863363405_1_alg».proof.Proof.Gen.KernelIdeal.Frame
import proofs.«164826_j75728863363405_1_alg».proof.Proof.Gen.ReferenceIdeal
import proofs.«164826_j75728863363405_1_alg».proof.Proof.Gen.Pre_finite_inputs
import proofs.«164826_j75728863363405_1_alg».proof.Proof.Gen.KernelIdeal.Value
import proofs.«164826_j75728863363405_1_alg».proof.Proof.Gen.ReferenceIdeal.Run
import proofs.«164826_j75728863363405_1_alg».proof.Proof.Gen.ReferenceIdeal.Read
import proofs.«164826_j75728863363405_1_alg».proof.Proof.Blocks
import proofs.«164826_j75728863363405_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array and the reference's are both the layer's result of the arguments. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
